-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S32x512x512 : Shape := ⟨3, ![32, 512, 512]⟩
abbrev S32x8x128 : Shape := ⟨3, ![32, 8, 128]⟩
abbrev S1x512x512 : Shape := ⟨3, ![1, 512, 512]⟩
abbrev S1x8x128 : Shape := ⟨3, ![1, 8, 128]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S8x128 : Shape := ⟨2, ![8, 128]⟩
abbrev S8 : Shape := ⟨1, ![8]⟩
abbrev S1x8 : Shape := ⟨2, ![1, 8]⟩
abbrev S32x1x1 : Shape := ⟨3, ![32, 1, 1]⟩
abbrev S32 : Shape := ⟨1, ![32]⟩
abbrev S_ : Shape := ⟨0, ![]⟩

abbrev nBuf : Space → Nat
  | .hbm => 44
  | .vmem => 20
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x512x512, .f32⟩
  | .hbm, ⟨3, _⟩ => ⟨S32x512x512, .f32⟩
  | .hbm, ⟨4, _⟩ => ⟨S32x8x128, .f32⟩
  | .hbm, ⟨5, _⟩ => ⟨S32x8x128, .f32⟩
  | .hbm, ⟨6, _⟩ => ⟨S32x8x128, .f32⟩
  | .hbm, ⟨7, _⟩ => ⟨S32x8x128, .f32⟩
  | .hbm, ⟨8, _⟩ => ⟨S32x8x128, .f32⟩
  | .hbm, ⟨9, _⟩ => ⟨S32x1x1, .f32⟩
  | .hbm, ⟨10, _⟩ => ⟨S32, .f32⟩
  | .hbm, ⟨11, _⟩ => ⟨S32x1x1, .f32⟩
  | .hbm, ⟨12, _⟩ => ⟨S32, .f32⟩
  | .hbm, ⟨13, _⟩ => ⟨S32x1x1, .f32⟩
  | .hbm, ⟨14, _⟩ => ⟨S32, .f32⟩
  | .hbm, ⟨15, _⟩ => ⟨S32x1x1, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .i1⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call0_v0 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x1x512x512_S32x512x512 : S32x1x512x512.ShapeCasts S32x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reduces_S8x128_S8 : S8x128.Reduces [1] S8
  shapeCasts_S8_S1x8 : S8.ShapeCasts S1x8
  reduces_S1x8_S1 : S1x8.Reduces [1] S1
  natLt_1_32 : 1 < 32
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S32x512x512.size a
  hwx1_0 : ∀ i : grid1.Coords, EltTy.bits .f32 = 32 ∨ (Rect.block (s := S32x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .f32 = 32 ∨ (Rect.block (s := S32x512x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S32x8x128.size a
  hwx1_2 : ∀ i : grid1.Coords, EltTy.bits .f32 = 32 ∨ (Rect.block (s := S32x8x128) S1x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S32x8x128.size a
  hwx1_3 : ∀ i : grid1.Coords, EltTy.bits .f32 = 32 ∨ (Rect.block (s := S32x8x128) S1x8x128.size (cc1_transform_3 i) (hinb1_3 i)).WholeWords (EltTy.packing .f32)

variable [Facts₀]

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1x512x512 : Shape := ⟨4, ![32, 1, 512, 512]⟩
abbrev S32x262144 : Shape := ⟨2, ![32, 262144]⟩
abbrev S_ : Shape := ⟨0, ![]⟩
abbrev S32 : Shape := ⟨1, ![32]⟩
abbrev S32x1 : Shape := ⟨2, ![32, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x262144, .f32⟩
  | .hbm, ⟨3, _⟩ => ⟨S32x262144, .f32⟩
  | .hbm, ⟨4, _⟩ => ⟨S_, .f32⟩
  | .hbm, ⟨5, _⟩ => ⟨S32x262144, .f32⟩
  | .hbm, ⟨6, _⟩ => ⟨S32x262144, .i1⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S32x262144, .f32⟩
  | .hbm, ⟨11, _⟩ => ⟨S32x262144, .i1⟩
  | .hbm, ⟨12, _⟩ => ⟨S32x262144, .i1⟩
  | .hbm, ⟨13, _⟩ => ⟨S32x262144, .i32⟩
  | .hbm, ⟨14, _⟩ => ⟨S_, .i32⟩
  | .hbm, ⟨15, _⟩ => ⟨S32, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32x262144, .f32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .i1⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_call0_v0 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  shapeCasts_S32x1x512x512_S32x262144 : S32x1x512x512.ShapeCasts S32x262144
  bcast_S_S32x262144 : S_.BroadcastsInDim S32x262144 (![] : Fin 0 → Fin S32x262144.rank)
  reducesTo_S32x262144_S32_d1 : S32x262144.ReducesTo [1] S32
  h_S_ : 0 < S_.numel
  bcast_S32_S32x1_0 : S32.BroadcastsInDim S32x1 (![0] : Fin 1 → Fin S32x1.rank)
  bcast_S32x1_S32x262144_0_1 : S32x1.BroadcastsInDim S32x262144 (![0, 1] : Fin 2 → Fin S32x262144.rank)
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Spec.lean ====
/-
  The mathematics both programs compute, stated once over extended reals.

  Each of the 32 samples is a pair of 512 x 512 maps, the predictions `p` and the targets `t`. Per sample four numbers
  are taken: the totals of `p`, of `t` and of the pointwise product `p * t`, and the number of positions at which
  "the prediction exceeds one half" and "the target equals the sample's largest target" are both true or both false.
  From the four vectors of 32 numbers one closing chain of elementwise operations makes the loss:
  score = 2 (sum pt + 1) / ((sum p + sum t) + 1), replaced by 1 where the count divided by 1 equals 1, and the
  result is the mean over the samples of 1 - score.

  One program takes each total as a sum over rows of sums along a row (and the largest target as a maximum over rows
  of row maxima); the other takes it over the 262144 positions of the flattened map. In the extended reals addition
  and `max` are commutative and associative without exception, so the two groupings agree for every input.
  One program counts by adding the numbers 0.0 / 1.0, the other adds 32-bit integers 0 / 1 and converts the total;
  a total of at most 262144 does not wrap, so both are the same whole number.
-/
import Idealize.ShloMosaic.PureOps.Ideal
import Idealize.ShloMosaic.PureOps.Ideal.Laws
import Idealize.ShloMosaic.Lib.ValueIdx

noncomputable section

open scoped BigOperators

namespace Cert.Dice

open Idealize.ShloMosaic Idealize.ShloMosaic.ValueIdx

/-- The argument arrays' shape: 32 samples, one channel, 512 rows, 512 columns. -/
abbrev SArg : Shape := ⟨4, ![32, 1, 512, 512]⟩
/-- A vector with one entry per sample, and the scalar shape. -/
abbrev SVec : Shape := ⟨1, ![32]⟩
abbrev SScal : Shape := ⟨0, ![]⟩

/-- One sample's map. -/
abbrev Map : Type := Fin 512 → Fin 512 → EReal

/-- Sample `b` of an argument array. -/
def slab (x : SArg.Idx → EReal) (b : Fin 32) : Map := fun h w => x (ix4 b (0 : Fin 1) h w)

/-- The word both programs start a maximum from (the pattern of minus infinity) and the threshold one half. -/
abbrev floor : EReal := Ideal.ofBits .f32 0xFF800000#32
abbrev half : EReal := Ideal.ofBits .f32 0x3F000000#32

/-- The total of a map: rows of row sums. -/
def total (f : Map) : EReal := ∑ h : Fin 512, ∑ w : Fin 512, f h w

/-- The largest entry of a map: the maximum over rows of row maxima, each taken from `floor`. -/
def peak (f : Map) : EReal :=
  (Finset.univ : Finset (Fin 512)).fold max floor fun h => (Finset.univ : Finset (Fin 512)).fold max floor fun w => f h w

/-- The bit "prediction above one half" and "target equal to `m`" agree: the exclusive or of the two, negated. -/
def agree (a t m : EReal) : BitVec 1 :=
  IntOp.xori (IntOp.xori (FloatOps.cmpf (F := Ideal) (φ := .f32) .ogt a half) (FloatOps.cmpf (F := Ideal) (φ := .f32) .oeq t m)) 1#1

/-- The number of positions of a sample at which the two bits agree, as a sum of the numbers 0 and 1. -/
def hits (p t : Map) : EReal :=
  ∑ h : Fin 512, ∑ w : Fin 512, FloatOps.sitofp (F := Ideal) .f32 ((agree (p h w) (t h w) (peak t)).setWidth 32)

/-- A per-sample number as a vector of 32 entries. -/
def vec (g : Fin 32 → EReal) : SVec.Idx → EReal := fun i => g (i 0)

/-- The four per-sample statistics of a pair of argument arrays. -/
def hitsVec (p t : SArg.Idx → EReal) : SVec.Idx → EReal := vec fun b => hits (slab p b) (slab t b)
def prodVec (p t : SArg.Idx → EReal) : SVec.Idx → EReal := vec fun b => total fun h w => slab p b h w * slab t b h w
def totalVec (p : SArg.Idx → EReal) : SVec.Idx → EReal := vec fun b => total (slab p b)

variable {F : FTy → Type} [FloatOps F]

/-- The closing chain, shared word for word by the two programs: from the count, the total of products and the two totals
    (each a vector over the samples) to the loss. It is carried as one function and never opened. -/
def closing (hb : SScal.BroadcastsInDim SVec (![] : Fin 0 → Fin SVec.rank)) (hr : SVec.ReducesTo [0] SScal) (h0 : 0 < SScal.numel)
    (count prod totP totT : FVec F SVec .f32) : FVec F SScal .f32 :=
  Host.divf (Host.reduceAdd (subf (broadcastInDim SVec ![] hb (constant SScal .f32 0x3F800000#32))
    (select (cmpf (F := F) .oeq (Host.divf count (broadcastInDim SVec ![] hb (constant SScal .f32 0x3F800000#32)))
        (broadcastInDim SVec ![] hb (constant SScal .f32 0x3F800000#32)))
      (broadcastInDim SVec ![] hb (constant SScal .f32 0x3F800000#32))
      (Host.divf (mulf (broadcastInDim SVec ![] hb (constant SScal .f32 0x40000000#32))
          (addf prod (broadcastInDim SVec ![] hb (constant SScal .f32 0x3F800000#32))))
        (addf (addf totP totT) (broadcastInDim SVec ![] hb (constant SScal .f32 0x3F800000#32))))))
    (constant SScal .f32 0x00000000#32) hr h0) (constant SScal .f32 0x42000000#32)

end Cert.Dice

end
-- ==== Proof.KernelTail.lean ====
/-
  After the two kernels, @main's remaining host operations take entry (b, 0, 0) of each of four 32 x 8 x 128 arrays
  (the kernels spread one number per sample over an 8 x 128 tile) as a vector over the samples, and apply the closing
  chain of the specification to the four vectors.
-/
import proofs.«177935_j19842748907779_1_alg».proof.Proof.Spec
import proofs.«177935_j19842748907779_1_alg».proof.Proof.Gen.KernelIdeal.Frame
import Idealize.ShloMosaic.Lib.StableHlo.Run

noncomputable section

namespace Cert.Dice

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Entry (b, 0, 0) of a 32 x 8 x 128 array, for every sample b: the slice [0:32, 0:1, 0:1] recast to a vector. -/
def corner (X : (⟨S32x8x128, .f32⟩ : BufTy).Contents (Elt F)) : (⟨S32, .f32⟩ : BufTy).Contents (Elt F) :=
  shapeCast _ (extractStridedSlice S32x1x1 ![0, 0, 0] X slices_S32x8x128_S32x1x1_0_0_0) shapeCasts_S32x1x1_S32

/-- The result buffer at the last boundary is the closing chain of the four corner vectors of the arrays the regions left
    (the count's, the products', the predictions' and the targets'). -/
theorem result_eq (c : Dev nD) :
    W6 m ρ c (Proc.devRef .tc main_v28)
      = closing (F := F) bcast_S_S32 reducesTo_S32_S_d0 h_S_
          (corner (W3 m ρ c (Proc.devRef .tc main_v3)))
          (corner (W3 m ρ c (Proc.devRef .tc main_v2_3)))
          (corner (W3 m ρ c (Proc.devRef .tc main_v2_1)))
          (corner (W3 m ρ c (Proc.devRef .tc main_v2_2))) := by
  show StableHlo.after hostOps2_2 (StableHlo.after hostOps2_1 (StableHlo.after hostOps2 (W3 m ρ c))) (Proc.devRef .tc main_v28) = _
  generalize W3 m ρ c = X
  dsimp only [hostOps2, hostOps2_1, hostOps2_2]
  after_results_simp
  rfl

end Cert.Dice

end
-- ==== Proof.PayStats.lean ====
/-
  The first kernel's body at one grid point, read at an entry. Its four stored blocks are each ONE number spread over
  an 8 x 128 tile: for the point's 512 x 512 blocks `x0` (predictions) and `x1` (targets), the largest target, the total
  of the predictions, the total of the targets, the total of the products. Each is taken along the rows first (one
  number per row) and then over the 512 row results.
-/
import proofs.«177935_j19842748907779_1_alg».proof.Proof.Spec
import proofs.«177935_j19842748907779_1_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.Dice

open Idealize.ShloMosaic Idealize.ShloMosaic.ValueIdx Cert.KernelIdeal Cert.KernelIdeal.Gen

/-- A staged 1 x 512 x 512 block as a map. -/
def blockMap (x : Vec Ideal S1x512x512 .f32) : Map := fun h w => x (ix3 (0 : Fin 1) h w)

section Chain
variable {α : Type}

/-- A number spread over a tile and recast reads that number everywhere. -/
private theorem cast_spread {s t : Shape} (c : α) (h : s.ShapeCasts t) (y : t.Idx) :
    shapeCast t (broadcast s c) h y = c := rfl

/-- The one entry of a one-element vector recast as 1 x 1. -/
private theorem extract_one (z : S1.Idx → α) (h : S1.ShapeCasts S1x1) (hp : ∀ a, (![0, 0] : Fin 2 → Nat) a < S1x1.size a) :
    extractAt ![0, 0] (shapeCast S1x1 z h) hp = z (ix1 (0 : Fin 1)) := by
  unfold extractAt
  refine (shapeCast_addUnit_apply ![1] z h _).trans ?_
  exact congrArg z (funext fun a => by fin_cases a; rfl)

/-- A vector recast as one row, read at (0, k). -/
private theorem cast_row {n : Nat} (q : (⟨1, ![n]⟩ : Shape).Idx → α) (h : (⟨1, ![n]⟩ : Shape).ShapeCasts ⟨2, ![1, n]⟩) (k : Fin n) :
    shapeCast (⟨2, ![1, n]⟩ : Shape) q h (ix2 (0 : Fin 1) k) = q (ix1 k) :=
  (shapeCast_addUnit_apply ![n] q h (ix2 (0 : Fin 1) k)).trans
    (congrArg q (funext fun a => by fin_cases a; rfl))

/-- A 1 x m x n block recast as m x n, read at (i, j). -/
private theorem cast_block {m n : Nat} (x : (⟨3, ![1, m, n]⟩ : Shape).Idx → α) (h : (⟨3, ![1, m, n]⟩ : Shape).ShapeCasts ⟨2, ![m, n]⟩)
    (i : Fin m) (j : Fin n) :
    shapeCast (⟨2, ![m, n]⟩ : Shape) x h (ix2 i j) = x (ix3 (0 : Fin 1) i j) :=
  (shapeCast_dropUnit_apply ![m, n] x h (ix2 i j)).trans
    (congrArg x (funext fun a => by fin_cases a <;> rfl))

end Chain

/-- The index over row i with column k. -/
private theorem lift_col {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- A sum along the rows, read at row i: the sum of that row's entries. -/
private theorem sum_rows {m n : Nat} (v : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction (F := Ideal) .add [1] (⟨1, ![m]⟩ : Shape) v acc h hφ hacc (ix1 i) = ∑ k : Fin n, v (ix2 i k) := by
  refine (Ideal.multiReduction_add_single v acc h hφ hacc (ix1 i)).trans ?_
  exact Finset.sum_congr rfl fun k _ => congrArg v (lift_col h i k)

/-- A maximum along the rows, read at row i: the fold of max over that row's entries from the starting value. -/
private theorem max_rows {m n : Nat} (v : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (i : Fin m) :
    multiReduction (F := Ideal) .maximumf [1] (⟨1, ![m]⟩ : Shape) v acc h hφ hacc (ix1 i)
      = (Finset.univ : Finset (Fin n)).fold max (Ideal.ofBits .f32 acc) fun k => v (ix2 i k) := by
  refine (Ideal.multiReduction_maximumf_single v acc h hφ hacc (ix1 i)).trans ?_
  have hf : (v ∘ h.lift (ix1 i)) = fun k : Fin n => v (ix2 i k) := funext fun k => congrArg v (lift_col h i k)
  exact congrArg (fun f => Finset.fold max (Ideal.ofBits .f32 acc) f (Finset.univ : Finset (Fin n))) hf

/-- Rows first, then the row results: the number extracted is the sum over rows of the row sums. -/
private theorem sum_chain (v : FVec Ideal S512x512 .f32) (acc acc' : BitVec 32)
    (h1 : S512x512.Reduces [1] S512) (c1 : S512.ShapeCasts S1x512) (h2 : S1x512.Reduces [1] S1) (c2 : S1.ShapeCasts S1x1)
    (hp : ∀ a, (![0, 0] : Fin 2 → Nat) a < S1x1.size a) (hφ hφ' : FKind.Formats .f32)
    (hacc : acc = FKind.add.neutral .f32 hφ) (hacc' : acc' = FKind.add.neutral .f32 hφ') :
    extractAt ![0, 0] (shapeCast S1x1 (multiReduction (F := Ideal) .add [1] S1
        (shapeCast S1x512 (multiReduction (F := Ideal) .add [1] S512 v acc h1 hφ hacc) c1) acc' h2 hφ' hacc') c2) hp
      = ∑ i : Fin 512, ∑ k : Fin 512, v (ix2 i k) := by
  refine (extract_one _ c2 hp).trans ?_
  refine (sum_rows _ acc' h2 hφ' hacc' (0 : Fin 1)).trans ?_
  refine Finset.sum_congr rfl fun i _ => ?_
  refine (cast_row _ c1 i).trans ?_
  exact sum_rows v acc h1 hφ hacc i

/-- Likewise for the maximum: the fold over rows of the rows' folds. -/
private theorem max_chain (v : FVec Ideal S512x512 .f32) (acc acc' : BitVec 32)
    (h1 : S512x512.Reduces [1] S512) (c1 : S512.ShapeCasts S1x512) (h2 : S1x512.Reduces [1] S1) (c2 : S1.ShapeCasts S1x1)
    (hp : ∀ a, (![0, 0] : Fin 2 → Nat) a < S1x1.size a) (hφ hφ' : FKind.Formats .f32)
    (hacc : acc = FKind.maximumf.neutral .f32 hφ) (hacc' : acc' = FKind.maximumf.neutral .f32 hφ') :
    extractAt ![0, 0] (shapeCast S1x1 (multiReduction (F := Ideal) .maximumf [1] S1
        (shapeCast S1x512 (multiReduction (F := Ideal) .maximumf [1] S512 v acc h1 hφ hacc) c1) acc' h2 hφ' hacc') c2) hp
      = (Finset.univ : Finset (Fin 512)).fold max (Ideal.ofBits .f32 acc') fun i =>
          (Finset.univ : Finset (Fin 512)).fold max (Ideal.ofBits .f32 acc) fun k => v (ix2 i k) := by
  refine (extract_one _ c2 hp).trans ?_
  refine (max_rows _ acc' h2 hφ' hacc' (0 : Fin 1)).trans ?_
  refine congrArg (fun f => Finset.fold max (Ideal.ofBits .f32 acc') f (Finset.univ : Finset (Fin 512))) (funext fun i => ?_)
  refine (cast_row _ c1 i).trans ?_
  exact max_rows v acc h1 hφ hacc i

/-- The tile stored for the predictions' total holds that total at every entry. -/
theorem pay_totalP (x0 : Vec Ideal S1x512x512 .f32) (y : S1x8x128.Idx) :
    k0_pay7 (F := Ideal) x0 y = total (blockMap x0) := by
  unfold k0_pay7 k0_pay3
  refine (cast_spread _ _ y).trans ?_
  refine (sum_chain _ _ _ _ _ _ _ _ _ _ _ _).trans ?_
  exact Finset.sum_congr rfl fun i _ => Finset.sum_congr rfl fun k _ => cast_block x0 _ i k

/-- The tile stored for the targets' total. -/
theorem pay_totalT (x1 : Vec Ideal S1x512x512 .f32) (y : S1x8x128.Idx) :
    k0_pay1 (F := Ideal) (k0_pay8 (F := Ideal) x1) y = total (blockMap x1) := by
  unfold k0_pay1 k0_pay8 k0_pay4
  refine (cast_spread _ _ y).trans ?_
  refine (sum_chain _ _ _ _ _ _ _ _ _ _ _ _).trans ?_
  exact Finset.sum_congr rfl fun i _ => Finset.sum_congr rfl fun k _ => cast_block x1 _ i k

/-- The tile stored for the total of products. -/
theorem pay_prod (x0 x1 : Vec Ideal S1x512x512 .f32) (y : S1x8x128.Idx) :
    k0_pay2 (F := Ideal) (k0_pay5 (F := Ideal) x0 x1) y = total fun h w => blockMap x0 h w * blockMap x1 h w := by
  unfold k0_pay2 k0_pay5 k0_pay3 k0_pay4
  refine (cast_spread _ _ y).trans ?_
  refine (sum_chain _ _ _ _ _ _ _ _ _ _ _ _).trans ?_
  refine Finset.sum_congr rfl fun i _ => Finset.sum_congr rfl fun k _ => ?_
  refine (mulf_apply _ _ (ix2 i k)).trans ?_
  exact congrArg₂ (fun a b : EReal => a * b) (cast_block x0 _ i k) (cast_block x1 _ i k)

/-- The tile stored for the largest target. -/
theorem pay_peak (x1 : Vec Ideal S1x512x512 .f32) (y : S1x8x128.Idx) :
    k0_pay6 (F := Ideal) x1 y = peak (blockMap x1) := by
  unfold k0_pay6 k0_pay4
  refine (cast_spread _ _ y).trans ?_
  refine (max_chain _ _ _ _ _ _ _ _ _ _ _ _).trans ?_
  exact congrArg (fun f => Finset.fold max floor f (Finset.univ : Finset (Fin 512))) (funext fun i =>
    congrArg (fun g => Finset.fold max floor g (Finset.univ : Finset (Fin 512))) (funext fun k => cast_block x1 _ i k))

end Cert.Dice

end
-- ==== Proof.PayHits.lean ====
/-
  The second kernel's body at one grid point, read at an entry. It reads the point's blocks of predictions `x0` and
  targets `x1` and the 8 x 128 tile `x2` the first kernel stored for the largest target. When every entry of that tile
  is one number `m` that is at least the starting value of a maximum, the maximum the body takes over the tile is `m`,
  and the stored tile holds, at every entry, the count of positions where "prediction above one half" agrees with
  "target equal to `m`", each agreement bit widened to 32 bits, converted, and the 0 / 1 numbers added row by row.
-/
import proofs.«177935_j19842748907779_1_alg».proof.Proof.Spec
import proofs.«177935_j19842748907779_1_alg».proof.Proof.PayStats

noncomputable section

open scoped BigOperators

namespace Cert.Dice

open Idealize.ShloMosaic Idealize.ShloMosaic.ValueIdx Cert.KernelIdeal Cert.KernelIdeal.Gen

section Chain
variable {α : Type}

/-- A number spread over a tile and recast reads that number everywhere. -/
private theorem cast_spread {s t : Shape} (c : α) (h : s.ShapeCasts t) (y : t.Idx) :
    shapeCast t (broadcast s c) h y = c := rfl

/-- The one entry of a one-element vector recast as 1 x 1. -/
private theorem extract_one (z : S1.Idx → α) (h : S1.ShapeCasts S1x1) (hp : ∀ a, (![0, 0] : Fin 2 → Nat) a < S1x1.size a) :
    extractAt ![0, 0] (shapeCast S1x1 z h) hp = z (ix1 (0 : Fin 1)) := by
  unfold extractAt
  refine (shapeCast_addUnit_apply ![1] z h _).trans ?_
  exact congrArg z (funext fun a => by fin_cases a; rfl)

/-- A vector recast as one row, read at (0, k). -/
private theorem cast_row {n : Nat} (q : (⟨1, ![n]⟩ : Shape).Idx → α) (h : (⟨1, ![n]⟩ : Shape).ShapeCasts ⟨2, ![1, n]⟩) (k : Fin n) :
    shapeCast (⟨2, ![1, n]⟩ : Shape) q h (ix2 (0 : Fin 1) k) = q (ix1 k) :=
  (shapeCast_addUnit_apply ![n] q h (ix2 (0 : Fin 1) k)).trans
    (congrArg q (funext fun a => by fin_cases a; rfl))

/-- A 1 x m x n block recast as m x n, read at (i, j). -/
private theorem cast_block {m n : Nat} (x : (⟨3, ![1, m, n]⟩ : Shape).Idx → α) (h : (⟨3, ![1, m, n]⟩ : Shape).ShapeCasts ⟨2, ![m, n]⟩)
    (i : Fin m) (j : Fin n) :
    shapeCast (⟨2, ![m, n]⟩ : Shape) x h (ix2 i j) = x (ix3 (0 : Fin 1) i j) :=
  (shapeCast_dropUnit_apply ![m, n] x h (ix2 i j)).trans
    (congrArg x (funext fun a => by fin_cases a <;> rfl))

end Chain

/-- The index over row i with column k. -/
private theorem lift_col {m n : Nat} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- A sum along the rows, read at row i: the sum of that row's entries. -/
private theorem sum_rows {m n : Nat} (v : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction (F := Ideal) .add [1] (⟨1, ![m]⟩ : Shape) v acc h hφ hacc (ix1 i) = ∑ k : Fin n, v (ix2 i k) := by
  refine (Ideal.multiReduction_add_single v acc h hφ hacc (ix1 i)).trans ?_
  exact Finset.sum_congr rfl fun k _ => congrArg v (lift_col h i k)

/-- A maximum along the rows, read at row i: the fold of max over that row's entries from the starting value. -/
private theorem max_rows {m n : Nat} (v : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (i : Fin m) :
    multiReduction (F := Ideal) .maximumf [1] (⟨1, ![m]⟩ : Shape) v acc h hφ hacc (ix1 i)
      = (Finset.univ : Finset (Fin n)).fold max (Ideal.ofBits .f32 acc) fun k => v (ix2 i k) := by
  refine (Ideal.multiReduction_maximumf_single v acc h hφ hacc (ix1 i)).trans ?_
  have hf : (v ∘ h.lift (ix1 i)) = fun k : Fin n => v (ix2 i k) := funext fun k => congrArg v (lift_col h i k)
  exact congrArg (fun f => Finset.fold max (Ideal.ofBits .f32 acc) f (Finset.univ : Finset (Fin n))) hf

/-- Rows first, then the row results: the number extracted is the sum over rows of the row sums. -/
private theorem sum_chain {m n : Nat} (v : FVec Ideal ⟨2, ![m, n]⟩ .f32) (acc acc' : BitVec 32)
    (h1 : (⟨2, ![m, n]⟩ : Shape).Reduces [1] (⟨1, ![m]⟩ : Shape)) (c1 : (⟨1, ![m]⟩ : Shape).ShapeCasts ⟨2, ![1, m]⟩)
    (h2 : (⟨2, ![1, m]⟩ : Shape).Reduces [1] S1) (c2 : S1.ShapeCasts S1x1)
    (hp : ∀ a, (![0, 0] : Fin 2 → Nat) a < S1x1.size a) (hφ hφ' : FKind.Formats .f32)
    (hacc : acc = FKind.add.neutral .f32 hφ) (hacc' : acc' = FKind.add.neutral .f32 hφ') :
    extractAt ![0, 0] (shapeCast S1x1 (multiReduction (F := Ideal) .add [1] S1
        (shapeCast (⟨2, ![1, m]⟩ : Shape) (multiReduction (F := Ideal) .add [1] (⟨1, ![m]⟩ : Shape) v acc h1 hφ hacc) c1) acc' h2 hφ' hacc') c2) hp
      = ∑ i : Fin m, ∑ k : Fin n, v (ix2 i k) := by
  refine (extract_one _ c2 hp).trans ?_
  refine (sum_rows _ acc' h2 hφ' hacc' (0 : Fin 1)).trans ?_
  refine Finset.sum_congr rfl fun i _ => ?_
  refine (cast_row _ c1 i).trans ?_
  exact sum_rows v acc h1 hφ hacc i

/-- Likewise for the maximum: the fold over rows of the rows' folds. -/
private theorem max_chain {m n : Nat} (v : FVec Ideal ⟨2, ![m, n]⟩ .f32) (acc acc' : BitVec 32)
    (h1 : (⟨2, ![m, n]⟩ : Shape).Reduces [1] (⟨1, ![m]⟩ : Shape)) (c1 : (⟨1, ![m]⟩ : Shape).ShapeCasts ⟨2, ![1, m]⟩)
    (h2 : (⟨2, ![1, m]⟩ : Shape).Reduces [1] S1) (c2 : S1.ShapeCasts S1x1)
    (hp : ∀ a, (![0, 0] : Fin 2 → Nat) a < S1x1.size a) (hφ hφ' : FKind.Formats .f32)
    (hacc : acc = FKind.maximumf.neutral .f32 hφ) (hacc' : acc' = FKind.maximumf.neutral .f32 hφ') :
    extractAt ![0, 0] (shapeCast S1x1 (multiReduction (F := Ideal) .maximumf [1] S1
        (shapeCast (⟨2, ![1, m]⟩ : Shape) (multiReduction (F := Ideal) .maximumf [1] (⟨1, ![m]⟩ : Shape) v acc h1 hφ hacc) c1) acc' h2 hφ' hacc') c2) hp
      = (Finset.univ : Finset (Fin m)).fold max (Ideal.ofBits .f32 acc') fun i =>
          (Finset.univ : Finset (Fin n)).fold max (Ideal.ofBits .f32 acc) fun k => v (ix2 i k) := by
  refine (extract_one _ c2 hp).trans ?_
  refine (max_rows _ acc' h2 hφ' hacc' (0 : Fin 1)).trans ?_
  refine congrArg (fun f => Finset.fold max (Ideal.ofBits .f32 acc') f (Finset.univ : Finset (Fin m))) (funext fun i => ?_)
  refine (cast_row _ c1 i).trans ?_
  exact max_rows v acc h1 hφ hacc i

/-- The largest of a nonempty family of copies of one number m, taken from a starting value not above m, is m. -/
private theorem fold_max_const {ι : Type} (s : Finset ι) (hs : s.Nonempty) (b m : EReal) (hb : b ≤ m) :
    s.fold max b (fun _ => m) = m := by
  obtain ⟨x, hx⟩ := hs
  exact le_antisymm ((Finset.fold_max_le m).2 ⟨hb, fun _ _ => le_rfl⟩) ((Finset.le_fold_max m).2 (Or.inr ⟨x, hx, le_rfl⟩))

/-- The largest entry of a map is at least the starting value. -/
private theorem floor_le_peak (f : Map) : floor ≤ peak f := (Finset.le_fold_max floor).2 (Or.inl le_rfl)

/-- The maximum over a tile that holds one number m (not below the starting value) everywhere is m. -/
private theorem tile_max (x2 : Vec Ideal S1x8x128 .f32) (m : EReal) (hx2 : ∀ z : S1x8x128.Idx, x2 z = m) (hm : floor ≤ m)
    (c0 : S1x8x128.ShapeCasts S8x128) (h1 : S8x128.Reduces [1] S8) (c1 : S8.ShapeCasts S1x8)
    (h2 : S1x8.Reduces [1] S1) (c2 : S1.ShapeCasts S1x1)
    (hp : ∀ a, (![0, 0] : Fin 2 → Nat) a < S1x1.size a) (hφ hφ' : FKind.Formats .f32)
    (hacc : (0xFF800000#32 : BitVec 32) = FKind.maximumf.neutral .f32 hφ) (hacc' : (0xFF800000#32 : BitVec 32) = FKind.maximumf.neutral .f32 hφ') :
    extractAt ![0, 0] (shapeCast S1x1 (multiReduction (F := Ideal) .maximumf [1] S1
        (shapeCast S1x8 (multiReduction (F := Ideal) .maximumf [1] S8 (shapeCast S8x128 x2 c0) 0xFF800000#32 h1 hφ hacc) c1)
        0xFF800000#32 h2 hφ' hacc') c2) hp = m := by
  refine (max_chain (shapeCast S8x128 x2 c0) _ _ h1 c1 h2 c2 hp hφ hφ' hacc hacc').trans ?_
  have hrow : ∀ i : Fin 8, ((Finset.univ : Finset (Fin 128)).fold max floor fun k => shapeCast S8x128 x2 c0 (ix2 i k)) = m := fun i => by
    have hf : (fun k : Fin 128 => shapeCast S8x128 x2 c0 (ix2 i k)) = fun _ => m :=
      funext fun k => (cast_block x2 c0 i k).trans (hx2 _)
    rw [hf]
    exact fold_max_const _ ⟨0, Finset.mem_univ _⟩ floor m hm
  have hall : (fun i : Fin 8 => (Finset.univ : Finset (Fin 128)).fold max floor fun k => shapeCast S8x128 x2 c0 (ix2 i k)) = fun _ => m :=
    funext hrow
  show (Finset.univ : Finset (Fin 8)).fold max floor (fun i : Fin 8 => (Finset.univ : Finset (Fin 128)).fold max floor fun k => shapeCast S8x128 x2 c0 (ix2 i k)) = m
  rw [hall]
  exact fold_max_const _ ⟨0, Finset.mem_univ _⟩ floor m hm

/-- One position's number: the agreement bit of the two comparisons, widened and converted. -/
private theorem count_entry (x0 x1 : Vec Ideal S1x512x512 .f32) (c : S1x512x512.ShapeCasts S512x512) (m : EReal)
    (hlt : 1 < 32) (i k : Fin 512) :
    sitofp (F := Ideal) .f32 (extui 32 (xori (xori
        (cmpf (F := Ideal) (φ := .f32) .ogt (shapeCast S512x512 x0 c) (broadcast S512x512 (Scalar.ofBits (F := Ideal) .f32 0x3F000000#32)))
        (cmpf (F := Ideal) (φ := .f32) .oeq (shapeCast S512x512 x1 c) (broadcast S512x512 m))) (constantI S512x512 1 1#1)) hlt) (ix2 i k)
      = FloatOps.sitofp (F := Ideal) .f32 ((agree (blockMap x0 i k) (blockMap x1 i k) m).setWidth 32) := by
  show FloatOps.sitofp (F := Ideal) .f32 ((IntOp.xori (IntOp.xori
      (FloatOps.cmpf (F := Ideal) (φ := .f32) .ogt (shapeCast S512x512 x0 c (ix2 i k)) half)
      (FloatOps.cmpf (F := Ideal) (φ := .f32) .oeq (shapeCast S512x512 x1 c (ix2 i k)) m)) 1#1).setWidth 32) = _
  rw [cast_block x0 c i k, cast_block x1 c i k]
  rfl

/-- The tile stored for the count, when the tile read for the largest target holds `peak (blockMap x1)` everywhere. -/
theorem pay_hits (x0 x1 : Vec Ideal S1x512x512 .f32) (x2 : Vec Ideal S1x8x128 .f32)
    (hx2 : ∀ z : S1x8x128.Idx, x2 z = peak (blockMap x1)) (y : S1x8x128.Idx) :
    k1_pay1 (F := Ideal) x0 x1 x2 y = hits (blockMap x0) (blockMap x1) := by
  unfold k1_pay1
  refine (cast_spread _ _ y).trans ?_
  refine (sum_chain _ _ _ _ _ _ _ _ _ _ _ _).trans ?_
  refine Finset.sum_congr rfl fun i _ => Finset.sum_congr rfl fun k _ => ?_
  refine (count_entry x0 x1 _ _ _ i k).trans ?_
  exact congrArg (fun m => FloatOps.sitofp (F := Ideal) .f32 ((agree (blockMap x0 i k) (blockMap x1 i k) m).setWidth 32))
    (tile_max x2 _ hx2 (floor_le_peak _) _ _ _ _ _ _ _ _ _ _)

end Cert.Dice

end
-- ==== Proof.KernelArrays0.lean ====
/-
  The first kernel's output arrays after its run. The grid has one point per sample; at point t every window's block
  is sample t's slab of its array (block index (t, 0, 0), the blocks tiling the array), so what point t writes back to
  an output array is an 8 x 128 tile holding one number computed from sample t's two maps, and after the 32 points the
  array holds, at (b, i, j), sample b's number.
-/
import proofs.«177935_j19842748907779_1_alg».proof.Proof.Spec
import proofs.«177935_j19842748907779_1_alg».proof.Proof.PayStats
import proofs.«177935_j19842748907779_1_alg».proof.Proof.Gen.KernelIdeal.Frame
import Idealize.ShloMosaic.Lib.Pipeline.Value

set_option maxRecDepth 16384

noncomputable section

open scoped BigOperators

namespace Cert.Dice

open Idealize.ShloMosaic Idealize.ShloMosaic.TcCoe Idealize.ShloMosaic.ValueIdx Idealize.SL.Sem
open Cert.KernelIdeal Cert.KernelIdeal.Gen
open Idealize.ShloMosaic.Pipeline (Dat)

/-- Two maps equal entry by entry have equal totals. -/
theorem total_congr {f g : Map} (h : ∀ a b, f a b = g a b) : total f = total g := by
  unfold total; exact Finset.sum_congr rfl fun a _ => Finset.sum_congr rfl fun b _ => h a b

/-- A per-sample number spread over the sample's 8 x 128 tile of a 32 x 8 x 128 array. -/
def spread (g : Fin 32 → EReal) : S32x8x128.Idx → EReal := fun i => g (i 0 : Fin 32)

/-- Sample b's map of a 32 x 512 x 512 array. -/
def plane (X : S32x512x512.Idx → EReal) (b : Fin 32) : Map := fun h w => X (ix3 b h w)

theorem hz3 : (![0, 0, 0] : Fin 3 → Nat) = fun _ => 0 := funext fun a => by fin_cases a <;> rfl

/-- Grid point t as a sample number. -/
def smp0 (t : Fin cfg0.N) : Fin 32 := ⟨t.val, lt_of_lt_of_eq t.isLt N_0⟩

/-- The printed index maps of the first kernel's six windows, decided over the grid: block (t, 0, 0) at point t. -/
theorem idx0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

section Region0

variable (V : (c : Dev nD) → (b : Ref sig .tc) → Buf (Elt Ideal) ((c : Thread nD τ).loc b))

/-- The predictions' block at point t is sample t's map of the array the region finds. -/
theorem pblock0 (c : Dev nD) (t : Fin cfg0.N) (h w : Fin 512) :
    iblk0 V c 0 t (ix3 (0 : Fin 1) h w) = plane (V c main_v0) (smp0 t) h w := by
  show V c main_v0 (((cfg0.win 0).blk t).view.emb (ix3 (0 : Fin 1) h w)) = V c main_v0 (ix3 (smp0 t) h w)
  obtain ⟨⟨e0, e1, e2⟩, -⟩ := idx0 t
  refine congrArg (V c main_v0) (funext fun a => Fin.ext ?_)
  match a with
  | ⟨0, _⟩ => show win0_0.index t (0 : Fin 3) * 1 + 1 * 0 = t.val; omega
  | ⟨1, _⟩ => show win0_0.index t (1 : Fin 3) * 512 + 1 * h.val = h.val; omega
  | ⟨2, _⟩ => show win0_0.index t (2 : Fin 3) * 512 + 1 * w.val = w.val; omega

/-- The targets' block likewise. -/
theorem tblock0 (c : Dev nD) (t : Fin cfg0.N) (h w : Fin 512) :
    iblk0 V c 1 t (ix3 (0 : Fin 1) h w) = plane (V c main_v1) (smp0 t) h w := by
  show V c main_v1 (((cfg0.win 1).blk t).view.emb (ix3 (0 : Fin 1) h w)) = V c main_v1 (ix3 (smp0 t) h w)
  obtain ⟨-, ⟨e0, e1, e2⟩, -⟩ := idx0 t
  refine congrArg (V c main_v1) (funext fun a => Fin.ext ?_)
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * w.val = w.val; omega

/-! ### Output window 3 -/

/-- An entry of point t's tile of window 3's array lies in sample t. -/
theorem tile3_sample (t : Fin cfg0.N) (j : S1x8x128.Idx) :
    ((((cfg0.win 3).blk t).view.emb j) 0 : Fin 32) = smp0 t := by
  obtain ⟨-, -, -, ⟨e0, e1, e2⟩, -⟩ := idx0 t
  refine Fin.ext ?_
  show win0_3.index t (0 : Fin 3) * 1 + 1 * (j 0).val = t.val
  have hj : (j 0).val < 1 := (j 0).isLt
  omega

/-- What point t writes back to window 3's array is its tile of the spread per-sample total of predictions. -/
theorem flushed0_3 (c : Dev nD) (t : Fin cfg0.N) :
    (dat0 V c).flushed 3 t = ((cfg0.win 3).blk t).view.read (Elt Ideal) (spread fun b => total (plane (V c main_v0) b)) := by
  show (cfg0.win 3).cut (grid0.coords t) ((dat0 V c).after 3 t) = _
  rw [after0_3]
  unfold out0_3
  rw [View.canon_unit_zero hz3]
  simp only [View.ld_unit_zero (S := S1x512x512) hz3]
  funext j
  show k0_pay7 (F := Ideal) (iblk0 V c 0 t) j = spread (fun b => total (plane (V c main_v0) b)) (((cfg0.win 3).blk t).view.emb j)
  refine (pay_totalP (iblk0 V c 0 t) j).trans ?_
  show _ = (fun b => total (plane (V c main_v0) b)) ((((cfg0.win 3).blk t).view.emb j) 0 : Fin 32)
  rw [tile3_sample]
  exact total_congr fun h w => pblock0 V c t h w

/-- Every entry of window 3's array is in the tile of the point of its sample. -/
theorem cover0_3w (i : S32x8x128.Idx) :
    ∃ t : Fin cfg0.N, (cfg0.win 3).flush t = true ∧ i ∈ ((cfg0.win 3).blk t).view.set := by
  have hi0 : (i 0).val < 32 := (i 0).isLt
  have hi1 : (i 1).val < 8 := (i 1).isLt
  have hi2 : (i 2).val < 128 := (i 2).isLt
  let t : Fin cfg0.N := ⟨(i 0).val, lt_of_lt_of_eq hi0 N_0.symm⟩
  refine ⟨t, flush0_3 t, ?_⟩
  show i ∈ ((View.whole main_v2_1).slice (win0_3.rect t)).set
  rw [View.set_slice_whole, Rect.mem_set_unit]
  obtain ⟨-, -, -, ⟨e0, e1, e2⟩, -⟩ := idx0 t
  have ht : t.val = (i 0).val := rfl
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- Window 3's array after the first kernel: every sample's total of predictions, spread over the sample's tile. -/
theorem final0_3 (c : Dev nD) : (dat0 V c).arrAt 3 cfg0.N = spread fun b => total (plane (V c main_v0) b) :=
  (dat0 V c).arrAt_eq_of_cover 3 (spread fun b => total (plane (V c main_v0) b)) (fun t _ => flushed0_3 V c t) cover0_3w

/-! ### Output window 4 -/

/-- An entry of point t's tile of window 4's array lies in sample t. -/
theorem tile4_sample (t : Fin cfg0.N) (j : S1x8x128.Idx) :
    ((((cfg0.win 4).blk t).view.emb j) 0 : Fin 32) = smp0 t := by
  obtain ⟨-, -, -, -, ⟨e0, e1, e2⟩, -⟩ := idx0 t
  refine Fin.ext ?_
  show win0_4.index t (0 : Fin 3) * 1 + 1 * (j 0).val = t.val
  have hj : (j 0).val < 1 := (j 0).isLt
  omega

/-- What point t writes back to window 4's array is its tile of the spread per-sample total of targets. -/
theorem flushed0_4 (c : Dev nD) (t : Fin cfg0.N) :
    (dat0 V c).flushed 4 t = ((cfg0.win 4).blk t).view.read (Elt Ideal) (spread fun b => total (plane (V c main_v1) b)) := by
  show (cfg0.win 4).cut (grid0.coords t) ((dat0 V c).after 4 t) = _
  rw [after0_4]
  unfold out0_4
  rw [View.canon_unit_zero hz3]
  simp only [View.ld_unit_zero (S := S1x512x512) hz3]
  funext j
  show k0_pay1 (F := Ideal) (k0_pay8 (F := Ideal) (iblk0 V c 1 t)) j = spread (fun b => total (plane (V c main_v1) b)) (((cfg0.win 4).blk t).view.emb j)
  refine (pay_totalT (iblk0 V c 1 t) j).trans ?_
  show _ = (fun b => total (plane (V c main_v1) b)) ((((cfg0.win 4).blk t).view.emb j) 0 : Fin 32)
  rw [tile4_sample]
  exact total_congr fun h w => tblock0 V c t h w

/-- Every entry of window 4's array is in the tile of the point of its sample. -/
theorem cover0_4w (i : S32x8x128.Idx) :
    ∃ t : Fin cfg0.N, (cfg0.win 4).flush t = true ∧ i ∈ ((cfg0.win 4).blk t).view.set := by
  have hi0 : (i 0).val < 32 := (i 0).isLt
  have hi1 : (i 1).val < 8 := (i 1).isLt
  have hi2 : (i 2).val < 128 := (i 2).isLt
  let t : Fin cfg0.N := ⟨(i 0).val, lt_of_lt_of_eq hi0 N_0.symm⟩
  refine ⟨t, flush0_4 t, ?_⟩
  show i ∈ ((View.whole main_v2_2).slice (win0_4.rect t)).set
  rw [View.set_slice_whole, Rect.mem_set_unit]
  obtain ⟨-, -, -, -, ⟨e0, e1, e2⟩, -⟩ := idx0 t
  have ht : t.val = (i 0).val := rfl
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- Window 4's array after the first kernel: every sample's total of targets, spread over the sample's tile. -/
theorem final0_4 (c : Dev nD) : (dat0 V c).arrAt 4 cfg0.N = spread fun b => total (plane (V c main_v1) b) :=
  (dat0 V c).arrAt_eq_of_cover 4 (spread fun b => total (plane (V c main_v1) b)) (fun t _ => flushed0_4 V c t) cover0_4w

/-! ### Output window 5 -/

/-- An entry of point t's tile of window 5's array lies in sample t. -/
theorem tile5_sample (t : Fin cfg0.N) (j : S1x8x128.Idx) :
    ((((cfg0.win 5).blk t).view.emb j) 0 : Fin 32) = smp0 t := by
  obtain ⟨-, -, -, -, -, ⟨e0, e1, e2⟩⟩ := idx0 t
  refine Fin.ext ?_
  show win0_5.index t (0 : Fin 3) * 1 + 1 * (j 0).val = t.val
  have hj : (j 0).val < 1 := (j 0).isLt
  omega

/-- What point t writes back to window 5's array is its tile of the spread per-sample total of products. -/
theorem flushed0_5 (c : Dev nD) (t : Fin cfg0.N) :
    (dat0 V c).flushed 5 t = ((cfg0.win 5).blk t).view.read (Elt Ideal) (spread fun b => total fun h w => plane (V c main_v0) b h w * plane (V c main_v1) b h w) := by
  show (cfg0.win 5).cut (grid0.coords t) ((dat0 V c).after 5 t) = _
  rw [after0_5]
  unfold out0_5
  rw [View.canon_unit_zero hz3]
  simp only [View.ld_unit_zero (S := S1x512x512) hz3]
  funext j
  show k0_pay2 (F := Ideal) (k0_pay5 (F := Ideal) (iblk0 V c 0 t) (iblk0 V c 1 t)) j = spread (fun b => total fun h w => plane (V c main_v0) b h w * plane (V c main_v1) b h w) (((cfg0.win 5).blk t).view.emb j)
  refine (pay_prod (iblk0 V c 0 t) (iblk0 V c 1 t) j).trans ?_
  show _ = (fun b => total fun h w => plane (V c main_v0) b h w * plane (V c main_v1) b h w) ((((cfg0.win 5).blk t).view.emb j) 0 : Fin 32)
  rw [tile5_sample]
  exact total_congr fun h w => congrArg₂ (· * ·) (pblock0 V c t h w) (tblock0 V c t h w)

/-- Every entry of window 5's array is in the tile of the point of its sample. -/
theorem cover0_5w (i : S32x8x128.Idx) :
    ∃ t : Fin cfg0.N, (cfg0.win 5).flush t = true ∧ i ∈ ((cfg0.win 5).blk t).view.set := by
  have hi0 : (i 0).val < 32 := (i 0).isLt
  have hi1 : (i 1).val < 8 := (i 1).isLt
  have hi2 : (i 2).val < 128 := (i 2).isLt
  let t : Fin cfg0.N := ⟨(i 0).val, lt_of_lt_of_eq hi0 N_0.symm⟩
  refine ⟨t, flush0_5 t, ?_⟩
  show i ∈ ((View.whole main_v2_3).slice (win0_5.rect t)).set
  rw [View.set_slice_whole, Rect.mem_set_unit]
  obtain ⟨-, -, -, -, -, ⟨e0, e1, e2⟩⟩ := idx0 t
  have ht : t.val = (i 0).val := rfl
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- Window 5's array after the first kernel: every sample's total of products, spread over the sample's tile. -/
theorem final0_5 (c : Dev nD) : (dat0 V c).arrAt 5 cfg0.N = spread fun b => total fun h w => plane (V c main_v0) b h w * plane (V c main_v1) b h w :=
  (dat0 V c).arrAt_eq_of_cover 5 (spread fun b => total fun h w => plane (V c main_v0) b h w * plane (V c main_v1) b h w) (fun t _ => flushed0_5 V c t) cover0_5w

/-! ### Output window 2 -/

/-- An entry of point t's tile of window 2's array lies in sample t. -/
theorem tile2_sample (t : Fin cfg0.N) (j : S1x8x128.Idx) :
    ((((cfg0.win 2).blk t).view.emb j) 0 : Fin 32) = smp0 t := by
  obtain ⟨-, -, ⟨e0, e1, e2⟩, -⟩ := idx0 t
  refine Fin.ext ?_
  show win0_2.index t (0 : Fin 3) * 1 + 1 * (j 0).val = t.val
  have hj : (j 0).val < 1 := (j 0).isLt
  omega

/-- What point t writes back to window 2's array is its tile of the spread per-sample largest target. -/
theorem flushed0_2 (c : Dev nD) (t : Fin cfg0.N) :
    (dat0 V c).flushed 2 t = ((cfg0.win 2).blk t).view.read (Elt Ideal) (spread fun b => peak (plane (V c main_v1) b)) := by
  show (cfg0.win 2).cut (grid0.coords t) ((dat0 V c).after 2 t) = _
  rw [after0_2]
  unfold out0_2
  rw [View.canon_unit_zero hz3]
  simp only [View.ld_unit_zero (S := S1x512x512) hz3]
  funext j
  show k0_pay6 (F := Ideal) (iblk0 V c 1 t) j = spread (fun b => peak (plane (V c main_v1) b)) (((cfg0.win 2).blk t).view.emb j)
  refine (pay_peak (iblk0 V c 1 t) j).trans ?_
  show _ = (fun b => peak (plane (V c main_v1) b)) ((((cfg0.win 2).blk t).view.emb j) 0 : Fin 32)
  rw [tile2_sample]
  exact congrArg peak (funext fun h => funext fun w => tblock0 V c t h w)

/-- Every entry of window 2's array is in the tile of the point of its sample. -/
theorem cover0_2w (i : S32x8x128.Idx) :
    ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  let t : Fin cfg0.N := ⟨(i 0).val, lt_of_lt_of_eq hi0 N_0.symm⟩
  refine ⟨t, flush0_2 t, ?_⟩
  show i ∈ ((View.whole main_v2_0).slice (win0_2.rect t)).set
  rw [View.set_slice_whole, Rect.mem_set_unit]
  obtain ⟨-, -, ⟨e0, e1, e2⟩, -⟩ := idx0 t
  have ht : t.val = (i 0).val := rfl
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- Window 2's array after the first kernel: every sample's largest target, spread over the sample's tile. -/
theorem final0_2 (c : Dev nD) : (dat0 V c).arrAt 2 cfg0.N = spread fun b => peak (plane (V c main_v1) b) :=
  (dat0 V c).arrAt_eq_of_cover 2 (spread fun b => peak (plane (V c main_v1) b)) (fun t _ => flushed0_2 V c t) cover0_2w

end Region0

end Cert.Dice

end
-- ==== Proof.KernelArrays1.lean ====
/-
  The second kernel's output array after its run. Again one grid point per sample and block (t, 0, 0) at point t. The
  kernel reads sample t's two maps and sample t's 8 x 128 tile of the array the first kernel left for the largest target;
  when that array holds each sample's largest target at every entry of the sample's tile, point t writes back a tile
  holding sample t's count of agreeing positions, and after the 32 points the array holds every sample's count.
-/
import proofs.«177935_j19842748907779_1_alg».proof.Proof.Spec
import proofs.«177935_j19842748907779_1_alg».proof.Proof.PayHits
import proofs.«177935_j19842748907779_1_alg».proof.Proof.KernelArrays0

set_option maxRecDepth 16384

noncomputable section

open scoped BigOperators

namespace Cert.Dice

open Idealize.ShloMosaic Idealize.ShloMosaic.TcCoe Idealize.ShloMosaic.ValueIdx Idealize.SL.Sem
open Cert.KernelIdeal Cert.KernelIdeal.Gen
open Idealize.ShloMosaic.Pipeline (Dat)

/-- Grid point t of the second kernel as a sample number. -/
def smp1 (t : Fin cfg1.N) : Fin 32 := ⟨t.val, lt_of_lt_of_eq t.isLt N_1⟩

/-- The printed index maps of the second kernel's four windows, decided over the grid: block (t, 0, 0) at point t. -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

section Region1

variable (V : (c : Dev nD) → (b : Ref sig .tc) → Buf (Elt Ideal) ((c : Thread nD τ).loc b))

/-- The predictions' block at point t is sample t's map of the array the region finds. -/
theorem pblock1 (c : Dev nD) (t : Fin cfg1.N) (h w : Fin 512) :
    iblk1 V c 0 t (ix3 (0 : Fin 1) h w) = plane (V c main_v0) (smp1 t) h w := by
  show V c main_v0 (((cfg1.win 0).blk t).view.emb (ix3 (0 : Fin 1) h w)) = V c main_v0 (ix3 (smp1 t) h w)
  obtain ⟨⟨e0, e1, e2⟩, -⟩ := idx1 t
  refine congrArg (V c main_v0) (funext fun a => Fin.ext ?_)
  match a with
  | ⟨0, _⟩ => show win1_0.index t (0 : Fin 3) * 1 + 1 * 0 = t.val; omega
  | ⟨1, _⟩ => show win1_0.index t (1 : Fin 3) * 512 + 1 * h.val = h.val; omega
  | ⟨2, _⟩ => show win1_0.index t (2 : Fin 3) * 512 + 1 * w.val = w.val; omega

/-- The targets' block likewise. -/
theorem tblock1 (c : Dev nD) (t : Fin cfg1.N) (h w : Fin 512) :
    iblk1 V c 1 t (ix3 (0 : Fin 1) h w) = plane (V c main_v1) (smp1 t) h w := by
  show V c main_v1 (((cfg1.win 1).blk t).view.emb (ix3 (0 : Fin 1) h w)) = V c main_v1 (ix3 (smp1 t) h w)
  obtain ⟨-, ⟨e0, e1, e2⟩, -⟩ := idx1 t
  refine congrArg (V c main_v1) (funext fun a => Fin.ext ?_)
  match a with
  | ⟨0, _⟩ => show win1_1.index t (0 : Fin 3) * 1 + 1 * 0 = t.val; omega
  | ⟨1, _⟩ => show win1_1.index t (1 : Fin 3) * 512 + 1 * h.val = h.val; omega
  | ⟨2, _⟩ => show win1_1.index t (2 : Fin 3) * 512 + 1 * w.val = w.val; omega

/-- The block of the largest-target array at point t is sample t's tile of it. -/
theorem mblock1 (c : Dev nD) (t : Fin cfg1.N) (z : S1x8x128.Idx) :
    iblk1 V c 2 t z = V c main_v2_0 (ix3 (smp1 t) (z 1 : Fin 8) (z 2 : Fin 128)) := by
  show V c main_v2_0 (((cfg1.win 2).blk t).view.emb z) = V c main_v2_0 (ix3 (smp1 t) (z 1 : Fin 8) (z 2 : Fin 128))
  obtain ⟨-, -, ⟨e0, e1, e2⟩, -⟩ := idx1 t
  have hz0 : (z 0).val < 1 := (z 0).isLt
  refine congrArg (V c main_v2_0) (funext fun a => Fin.ext ?_)
  match a with
  | ⟨0, _⟩ => show win1_2.index t (0 : Fin 3) * 1 + 1 * (z 0).val = t.val; omega
  | ⟨1, _⟩ => show win1_2.index t (1 : Fin 3) * 8 + 1 * (z 1).val = (z 1).val; omega
  | ⟨2, _⟩ => show win1_2.index t (2 : Fin 3) * 128 + 1 * (z 2).val = (z 2).val; omega

/-- An entry of point t's tile of the count's array lies in sample t. -/
theorem tile1_sample (t : Fin cfg1.N) (j : S1x8x128.Idx) :
    ((((cfg1.win 3).blk t).view.emb j) 0 : Fin 32) = smp1 t := by
  obtain ⟨-, -, -, ⟨e0, e1, e2⟩⟩ := idx1 t
  refine Fin.ext ?_
  show win1_3.index t (0 : Fin 3) * 1 + 1 * (j 0).val = t.val
  have hj : (j 0).val < 1 := (j 0).isLt
  omega

/-- What point t writes back to the count's array, when the largest-target array the region finds holds every sample's
    largest target over the sample's tile: its tile of the spread per-sample count (the count named `g`, so that the
    comparison of the two sides never opens it). -/
theorem flushed1_3 (c : Dev nD)
    (hmax : V c main_v2_0 = spread fun b => peak (plane (V c main_v1) b))
    (g : Fin 32 → EReal) (hg : ∀ b, g b = hits (plane (V c main_v0) b) (plane (V c main_v1) b)) (t : Fin cfg1.N) :
    (dat1 V c).flushed 3 t = ((cfg1.win 3).blk t).view.read (Elt Ideal) (spread g) := by
  show (cfg1.win 3).cut (grid1.coords t) ((dat1 V c).after 3 t) = _
  rw [after1_3]
  unfold out1_3
  rw [View.canon_unit_zero hz3]
  rw [View.ld_unit_zero (S := S1x8x128) hz3 _ (iblk1 V c 2 t), View.ld_unit_zero (S := S1x512x512) hz3 _ (iblk1 V c 0 t),
    View.ld_unit_zero (S := S1x512x512) hz3 _ (iblk1 V c 1 t)]
  generalize hY : k1_pay1 (F := Ideal) (iblk1 V c 0 t) (iblk1 V c 1 t) (iblk1 V c 2 t) = Y
  funext j
  show Y j = g ((((cfg1.win 3).blk t).view.emb j) 0 : Fin 32)
  rw [tile1_sample, hg, ← hY]
  have hT : blockMap (iblk1 V c 1 t) = plane (V c main_v1) (smp1 t) :=
    funext fun h => funext fun w => tblock1 V c t h w
  have hP : blockMap (iblk1 V c 0 t) = plane (V c main_v0) (smp1 t) :=
    funext fun h => funext fun w => pblock1 V c t h w
  refine (pay_hits (iblk1 V c 0 t) (iblk1 V c 1 t) (iblk1 V c 2 t) (fun z => ?_) j).trans ?_
  · rw [mblock1 V c t z, hmax, hT]; rfl
  · rw [hP, hT]

/-- Every entry of the count's array is in the tile of the point of its sample. -/
theorem cover1_3w (i : S32x8x128.Idx) :
    ∃ t : Fin cfg1.N, (cfg1.win 3).flush t = true ∧ i ∈ ((cfg1.win 3).blk t).view.set := by
  have hi0 : (i 0).val < 32 := (i 0).isLt
  have hi1 : (i 1).val < 8 := (i 1).isLt
  have hi2 : (i 2).val < 128 := (i 2).isLt
  let t : Fin cfg1.N := ⟨(i 0).val, lt_of_lt_of_eq hi0 N_1.symm⟩
  refine ⟨t, flush1_3 t, ?_⟩
  show i ∈ ((View.whole main_v3).slice (win1_3.rect t)).set
  rw [View.set_slice_whole, Rect.mem_set_unit]
  obtain ⟨-, -, -, ⟨e0, e1, e2⟩⟩ := idx1 t
  have ht : t.val = (i 0).val := rfl
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 8 ≤ (i 1).val ∧ (i 1).val < win1_3.index t (1 : Fin 3) * 8 + 8; omega
  | ⟨2, _⟩ => show win1_3.index t (2 : Fin 3) * 128 ≤ (i 2).val ∧ (i 2).val < win1_3.index t (2 : Fin 3) * 128 + 128; omega

/-- The count's array after the second kernel: every sample's count, spread over the sample's tile. -/
theorem final1_3 (c : Dev nD) (hmax : V c main_v2_0 = spread fun b => peak (plane (V c main_v1) b)) :
    (dat1 V c).arrAt 3 cfg1.N = spread fun b => hits (plane (V c main_v0) b) (plane (V c main_v1) b) :=
  (dat1 V c).arrAt_eq_of_cover 3 (spread fun b => hits (plane (V c main_v0) b) (plane (V c main_v1) b))
    (fun t _ => flushed1_3 V c hmax (fun b => hits (plane (V c main_v0) b) (plane (V c main_v1) b)) (fun _ => rfl) t) cover1_3w

end Region1

end Cert.Dice

end
-- ==== Proof.KernelValue.lean ====
/-
  The kernel program's result as the specification's closing chain of the four per-sample statistics of its arguments.
  The arguments are first recast from 32 x 1 x 512 x 512 to 32 x 512 x 512 (sample b's map is unchanged); the first
  kernel leaves the per-sample largest target, total of predictions, total of targets and total of products, each
  spread over the sample's tile; the second kernel reads the recast arguments as the first found them (an input window's
  array is never written back) and the largest-target array, and leaves the per-sample count; the closing stretch takes
  entry (b, 0, 0) of each tile.
-/
import proofs.«177935_j19842748907779_1_alg».proof.Proof.Spec
import proofs.«177935_j19842748907779_1_alg».proof.Proof.KernelRun
import proofs.«177935_j19842748907779_1_alg».proof.Proof.KernelTail
import proofs.«177935_j19842748907779_1_alg».proof.Proof.KernelArrays1
import Idealize.ShloMosaic.Lib.StableHlo.Run
import Idealize.ShloMosaic.Lib.Pipeline.Value

set_option maxRecDepth 16384

noncomputable section

open scoped BigOperators

namespace Cert.Dice

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-- Sample b's map of a recast argument array is sample b's map of the argument. -/
theorem plane_recast (x : S32x1x512x512.Idx → EReal) (b : Fin 32) :
    plane (shapeCast S32x512x512 x shapeCasts_S32x1x512x512_S32x512x512) b = slab x b := by
  funext h w
  show shapeCast S32x512x512 x shapeCasts_S32x1x512x512_S32x512x512 (ix3 b h w) = x (ix4 b (0 : Fin 1) h w)
  refine shapeCast_apply x shapeCasts_S32x1x512x512_S32x512x512 (ix3 b h w) (ix4 b (0 : Fin 1) h w) ?_
  rw [Shape.rowMajor_val_four, Shape.rowMajor_val_three]
  show ((b.val * 1 + 0) * 512 + h.val) * 512 + w.val = (b.val * 512 + h.val) * 512 + w.val
  omega

/-- Entry (b, 0, 0) of a spread per-sample number, for every sample, is the number as a vector. -/
theorem corner_spread (g : Fin 32 → EReal) : corner (F := Ideal) (spread g) = vec g := by
  funext i
  obtain ⟨b, rfl⟩ : ∃ b : Fin 32, i = ix1 b := ⟨i 0, eq_ix1 i⟩
  unfold corner
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  · refine (extractStridedSlice_apply ![0, 0, 0] (spread g) slices_S32x8x128_S32x1x1_0_0_0 (ix3 b (0 : Fin 1) (0 : Fin 1))
      (ix3 b (0 : Fin 8) (0 : Fin 128)) fun a => ?_).trans rfl
    match a with
    | ⟨0, _⟩ => show b.val = 0 + b.val; omega
    | ⟨1, _⟩ => rfl
    | ⟨2, _⟩ => rfl

/-! ### The arrays at the boundaries -/

/-- The first region finds the recast arguments. -/
theorem V1_pred (c : Dev nD) :
    V1 m ρ c main_v0 = shapeCast S32x512x512 (m ((c : Thread nD τ).loc main_arg0)) shapeCasts_S32x1x512x512_S32x512x512 := by
  show StableHlo.after hostOps0 (W0 m ρ c) (Proc.devRef .tc main_v0) = _
  dsimp only [hostOps0]
  after_results
  rfl
theorem V1_targ (c : Dev nD) :
    V1 m ρ c main_v1 = shapeCast S32x512x512 (m ((c : Thread nD τ).loc main_arg1)) shapeCasts_S32x1x512x512_S32x512x512 := by
  show StableHlo.after hostOps0 (W0 m ρ c) (Proc.devRef .tc main_v1) = _
  dsimp only [hostOps0]
  after_results
  rfl

/-- The second region finds them as the first did: an input window's array is never written back. -/
theorem V2_pred (c : Dev nD) : V2 m ρ c main_v0 = V1 m ρ c main_v0 :=
  (W2_arr m ρ c 0).trans (((dat0 (V1 m ρ) c).arrAt_in 0 rfl cfg0.N).trans (A_eq0 (V1 m ρ) c 0))
theorem V2_targ (c : Dev nD) : V2 m ρ c main_v1 = V1 m ρ c main_v1 :=
  (W2_arr m ρ c 1).trans (((dat0 (V1 m ρ) c).arrAt_in 1 rfl cfg0.N).trans (A_eq0 (V1 m ρ) c 1))

/-- and the largest-target array as the first region left it. -/
theorem V2_peak (c : Dev nD) : V2 m ρ c main_v2_0 = spread fun b => peak (plane (V2 m ρ c main_v1) b) := by
  rw [V2_targ]
  exact (W2_arr m ρ c 2).trans (final0_2 (V1 m ρ) c)

/-- After both regions: the four arrays the closing stretch reads. -/
theorem W3_count (c : Dev nD) :
    W3 m ρ c (Proc.devRef .tc main_v3) = spread fun b => hits (plane (V1 m ρ c main_v0) b) (plane (V1 m ρ c main_v1) b) := by
  refine (W3_arr m ρ c 3).trans ((final1_3 (V2 m ρ) c (V2_peak m ρ c)).trans ?_)
  rw [V2_pred, V2_targ]
theorem W3_prod (c : Dev nD) :
    W3 m ρ c (Proc.devRef .tc main_v2_3)
      = spread fun b => total fun h w => plane (V1 m ρ c main_v0) b h w * plane (V1 m ρ c main_v1) b h w :=
  (W3_of_ne m ρ c main_v2_3 (by decide)).trans ((W2_arr m ρ c 5).trans (final0_5 (V1 m ρ) c))
theorem W3_totP (c : Dev nD) :
    W3 m ρ c (Proc.devRef .tc main_v2_1) = spread fun b => total (plane (V1 m ρ c main_v0) b) :=
  (W3_of_ne m ρ c main_v2_1 (by decide)).trans ((W2_arr m ρ c 3).trans (final0_3 (V1 m ρ) c))
theorem W3_totT (c : Dev nD) :
    W3 m ρ c (Proc.devRef .tc main_v2_2) = spread fun b => total (plane (V1 m ρ c main_v1) b) :=
  (W3_of_ne m ρ c main_v2_2 (by decide)).trans ((W2_arr m ρ c 4).trans (final0_4 (V1 m ρ) c))

/-- THE KERNEL'S VALUE: the result buffer at the last boundary is the closing chain of the four statistics of the arguments. -/
theorem value (c : Dev nD) :
    W6 m ρ c (Proc.devRef .tc main_v28)
      = closing (F := Ideal) bcast_S_S32 reducesTo_S32_S_d0 h_S_
          (hitsVec (m ((c : Thread nD τ).loc main_arg0)) (m ((c : Thread nD τ).loc main_arg1)))
          (prodVec (m ((c : Thread nD τ).loc main_arg0)) (m ((c : Thread nD τ).loc main_arg1)))
          (totalVec (m ((c : Thread nD τ).loc main_arg0)))
          (totalVec (m ((c : Thread nD τ).loc main_arg1))) := by
  have eP : ∀ b, plane (V1 m ρ c main_v0) b = slab (m ((c : Thread nD τ).loc main_arg0)) b := fun b => by
    rw [V1_pred]; exact plane_recast _ b
  have eT : ∀ b, plane (V1 m ρ c main_v1) b = slab (m ((c : Thread nD τ).loc main_arg1)) b := fun b => by
    rw [V1_targ]; exact plane_recast _ b
  rw [result_eq, W3_count, W3_prod, W3_totP, W3_totT, corner_spread, corner_spread, corner_spread, corner_spread]
  simp only [eP, eT]
  unfold hitsVec prodVec totalVec
  rfl

/-- The kernel's run with its result at that value and the arguments unchanged. -/
theorem run :
    θ_run defs (onTc (τ := τ) (main (F := Ideal))) ⟨m, fun _ => 0, ρ⟩ (fun r => ∀ c : Dev nD,
      r.2.mem ((c.tc : Thread nD τ).loc main_v28)
        = closing (F := Ideal) bcast_S_S32 reducesTo_S32_S_d0 h_S_
          (hitsVec (m ((c : Thread nD τ).loc main_arg0)) (m ((c : Thread nD τ).loc main_arg1)))
          (prodVec (m ((c : Thread nD τ).loc main_arg0)) (m ((c : Thread nD τ).loc main_arg1)))
          (totalVec (m ((c : Thread nD τ).loc main_arg0)))
          (totalVec (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (value m ρ c), (h c).2⟩)
    (Cert.KernelIdeal.GenRun.run_result m ρ)

end Cert.Dice

end
-- ==== Proof.LibCountBits.lean ====
/-
  Counting with 32-bit integers. A sum of 32-bit words each of which is a one-bit value widened with zeros (so 0 or 1),
  over fewer than 2^31 terms, never wraps: the signed value of the machine total is the number of ones. Converted to an
  extended real it is therefore the sum of the terms converted one by one.
-/
import Idealize.ShloMosaic.PureOps.Ideal
import Idealize.ShloMosaic.PureOps.Reduce

noncomputable section

open scoped BigOperators

namespace Cert.Dice

open Idealize.ShloMosaic

/-- A one-bit value widened with zeros is 0 or 1 as a number. -/
private theorem toNat_widened_bit_le (b : BitVec 1) : (b.setWidth 32).toNat ≤ 1 := by
  rw [BitVec.toNat_setWidth]
  have := b.isLt
  omega

/-- A sum of widened bits is at most the number of terms. -/
private theorem sum_widened_bits_le {ι : Type} (β : ι → BitVec 1) (s : Finset ι) :
    ∑ i ∈ s, ((β i).setWidth 32).toNat ≤ s.card := by
  calc ∑ i ∈ s, ((β i).setWidth 32).toNat ≤ ∑ _i ∈ s, 1 := Finset.sum_le_sum fun i _ => toNat_widened_bit_le (β i)
    _ = s.card := (Finset.card_eq_sum_ones s).symm

/-- Over fewer than 2^32 terms the wrapped total of widened bits is their true sum: adding one more bit to a total
    that is at most the number of terms so far stays below 2^32. -/
private theorem toNat_fold_addi_widened_bits {ι : Type} [DecidableEq ι] (β : ι → BitVec 1) (s : Finset ι) :
    s.card < 2 ^ 32 →
      (s.fold IntOp.addi 0#32 fun i => (β i).setWidth 32).toNat = ∑ i ∈ s, ((β i).setWidth 32).toNat := by
  induction s using Finset.induction_on with
  | empty => intro _; rfl
  | insert a s ha ih =>
    intro hc
    rw [Finset.card_insert_of_notMem ha] at hc
    rw [Finset.fold_insert ha, Finset.sum_insert ha]
    show (((β a).setWidth 32) + s.fold IntOp.addi 0#32 fun i => (β i).setWidth 32).toNat = _
    rw [BitVec.toNat_add, ih (by omega)]
    have h1 := toNat_widened_bit_le (β a)
    have h2 := sum_widened_bits_le β s
    exact Nat.mod_eq_of_lt (by omega)

/-- The inclusion of the reals in the extended reals goes through finite sums. -/
private theorem coe_ereal_sum {ι : Type} (s : Finset ι) (r : ι → ℝ) :
    ((∑ i ∈ s, r i : ℝ) : EReal) = ∑ i ∈ s, (r i : EReal) := by
  classical
  induction s using Finset.induction_on with
  | empty => rw [Finset.sum_empty, Finset.sum_empty, EReal.coe_zero]
  | insert a s ha ih => rw [Finset.sum_insert ha, Finset.sum_insert ha, EReal.coe_add, ih]

/-- The conversion of a 32-bit word below 2^31 is its unsigned value. -/
private theorem sitofp_of_lt (x : BitVec 32) (hx : x.toNat < 2 ^ 31) :
    FloatOps.sitofp (F := Ideal) .f32 x = (((x.toNat : ℕ) : ℝ) : EReal) := by
  show (((x.toInt : ℤ) : ℝ) : EReal) = _
  rw [BitVec.toInt_eq_toNat_of_lt (by omega), Int.cast_natCast]

/-- The conversion of the wrapped integer total of widened bits is the sum of the converted bits, for any finite index
    type of fewer than 2^31 elements. -/
theorem sitofp_fold_addi_bits {ι : Type} [Fintype ι] (β : ι → BitVec 1) (hcard : Fintype.card ι < 2 ^ 31) :
    FloatOps.sitofp (F := Ideal) .f32 ((Finset.univ : Finset ι).fold IntOp.addi 0#32 fun i => (β i).setWidth 32)
      = ∑ i, FloatOps.sitofp (F := Ideal) .f32 ((β i).setWidth 32) := by
  classical
  have hcard : (Finset.univ : Finset ι).card < 2 ^ 31 := by rw [Finset.card_univ]; exact hcard
  -- the machine total is the number of ones, which is at most the number of terms
  have htot := toNat_fold_addi_widened_bits β Finset.univ (by omega)
  have hle := sum_widened_bits_le β Finset.univ
  rw [sitofp_of_lt _ (by omega), htot, Nat.cast_sum, coe_ereal_sum]
  -- term by term, each widened bit is 0 or 1, far below 2^31
  refine Finset.sum_congr rfl fun i _ => (sitofp_of_lt _ ?_).symm
  have := toNat_widened_bit_le (β i)
  omega

/-- On one bit, "equal" is the negated exclusive or. -/
theorem cmpi_eq_bit (a b : BitVec 1) : IntOp.cmpi .eq a b = IntOp.xori (IntOp.xori a b) 1#1 := by
  -- four cases
  revert a b
  decide

end Cert.Dice

end
-- ==== Proof.LibFlatPlane.lean ====
/-
  A 512 x 512 map laid out row after row is a list of 262144 entries, entry `512 h + w` being row `h`, column `w`.
  A sum over the list is the sum over rows of the sums along each row, in any commutative monoid; a maximum over the
  list taken from a starting value is the maximum over rows of the row maxima taken from the same value.
-/
import Mathlib.Algebra.BigOperators.Fin
import Mathlib.Data.Finset.Fold
import Mathlib.Order.Lattice

open scoped BigOperators

namespace Cert.Dice

/-- Position `k` of the flattened map is row `k / 512`, column `k % 512`. -/
def rowOf (k : Fin 262144) : Fin 512 := ⟨k.val / 512, by have := k.isLt; omega⟩
def colOf (k : Fin 262144) : Fin 512 := ⟨k.val % 512, Nat.mod_lt _ (by decide)⟩

/-- Positions and (row, column) pairs correspond one to one: position `k` is the pair `(k / 512, k % 512)`, and the
    pair `(h, w)` is position `512 h + w`. -/
private def flatEquiv : Fin 262144 ≃ Fin 512 × Fin 512 where
  toFun k := (rowOf k, colOf k)
  invFun p := ⟨512 * p.1.val + p.2.val, by have := p.1.isLt; have := p.2.isLt; omega⟩
  left_inv k := by
    apply Fin.ext
    show 512 * (k.val / 512) + k.val % 512 = k.val
    omega
  right_inv p := by
    obtain ⟨h, w⟩ := p
    have hh := h.isLt
    have hw := w.isLt
    refine Prod.ext (Fin.ext ?_) (Fin.ext ?_)
    · show (512 * h.val + w.val) / 512 = h.val
      omega
    · show (512 * h.val + w.val) % 512 = w.val
      omega

/-- The sum over the flattened positions is the sum over rows of row sums. -/
theorem sum_flat_eq_rows {M : Type*} [AddCommMonoid M] (g : Fin 512 → Fin 512 → M) :
    ∑ k : Fin 262144, g (rowOf k) (colOf k) = ∑ h : Fin 512, ∑ w : Fin 512, g h w := by
  -- the double sum is the sum over pairs, and the pairs are the positions renamed
  rw [← Fintype.sum_prod_type' g]
  exact Fintype.sum_equiv flatEquiv _ _ fun _ => rfl

/-- The maximum over the flattened positions, from `a`, is the maximum over rows of row maxima, each from `a`. -/
theorem fold_max_flat_eq_rows {α : Type*} [LinearOrder α] (a : α) (g : Fin 512 → Fin 512 → α) :
    (Finset.univ : Finset (Fin 262144)).fold max a (fun k => g (rowOf k) (colOf k))
      = (Finset.univ : Finset (Fin 512)).fold max a fun h => (Finset.univ : Finset (Fin 512)).fold max a fun w => g h w := by
  apply le_antisymm
  · -- every flat entry is an entry of its row, and the starting value is below any maximum taken from it
    refine (Finset.fold_max_le _).mpr ⟨(Finset.le_fold_max _).mpr (Or.inl le_rfl), fun k _ => ?_⟩
    exact (Finset.le_fold_max _).mpr (Or.inr ⟨rowOf k, Finset.mem_univ _,
      (Finset.le_fold_max _).mpr (Or.inr ⟨colOf k, Finset.mem_univ _, le_rfl⟩)⟩)
  · -- every entry `(h, w)` of a row is the flat entry `512 h + w`
    refine (Finset.fold_max_le _).mpr ⟨(Finset.le_fold_max _).mpr (Or.inl le_rfl), fun h _ => ?_⟩
    refine (Finset.fold_max_le _).mpr ⟨(Finset.le_fold_max _).mpr (Or.inl le_rfl), fun w _ => ?_⟩
    refine (Finset.le_fold_max _).mpr (Or.inr ⟨flatEquiv.symm (h, w), Finset.mem_univ _, le_of_eq ?_⟩)
    have e : (rowOf (flatEquiv.symm (h, w)), colOf (flatEquiv.symm (h, w))) = (h, w) :=
      flatEquiv.apply_symm_apply (h, w)
    have e1 : rowOf (flatEquiv.symm (h, w)) = h := congrArg Prod.fst e
    have e2 : colOf (flatEquiv.symm (h, w)) = w := congrArg Prod.snd e
    rw [e1, e2]

end Cert.Dice
-- ==== Proof.RefStats.lean ====
/-
  The reference's four per-sample statistics, read one sample at a time. Each is a reduction over the 262144 entries of
  the flattened sample; entry `k` of sample `b` is row `k / 512`, column `k % 512` of the sample's map, so each is
  the statistic of the specification (sums regrouped by rows; the maximum likewise; the integer count converted).
-/
import proofs.«177935_j19842748907779_1_alg».proof.Proof.Spec
import proofs.«177935_j19842748907779_1_alg».proof.Proof.LibCountBits
import proofs.«177935_j19842748907779_1_alg».proof.Proof.LibFlatPlane
import proofs.«177935_j19842748907779_1_alg».proof.Proof.RefReadPatched
import Idealize.ShloMosaic.PureOps.Reduce

noncomputable section

open scoped BigOperators

namespace Cert.Dice

open Idealize.ShloMosaic Idealize.ShloMosaic.ValueIdx Cert.ReferenceIdeal Cert.ReferenceIdeal.ReadP

/-- Entry `k` of sample `b` of the flattened array is row `k / 512`, column `k % 512` of that sample's map. -/
private theorem flat_idx (b : Fin 32) (k : Fin 262144) :
    idx_main_v0 (idx_main_v20 (ix1 b) k) = ix4 b (0 : Fin 1) (rowOf k) (colOf k) := by
  funext a
  apply Fin.ext
  have hk : k.val < 262144 := k.isLt
  have hb : b.val < 32 := b.isLt
  match a with
  | ⟨0, _⟩ => show (b.val * 262144 + k.val) / 262144 = b.val; omega
  | ⟨1, _⟩ => rfl
  | ⟨2, _⟩ => show (b.val * 262144 + k.val) / 512 % 512 = k.val / 512; omega
  | ⟨3, _⟩ => show (b.val * 262144 + k.val) % 512 = k.val % 512; omega

/-- The flattened first argument at (b, k) is the sample's map at row `k / 512`, column `k % 512`. -/
private theorem flat0_apply (x : (⟨S32x1x512x512, .f32⟩ : BufTy).Contents (Elt Ideal)) (b : Fin 32) (k : Fin 262144) :
    val_main_v0 (F := Ideal) x (idx_main_v20 (ix1 b) k) = slab x b (rowOf k) (colOf k) := by
  rw [val_main_v0_apply, flat_idx]
  rfl

/-- The flattened second argument likewise. -/
private theorem flat1_apply (x : (⟨S32x1x512x512, .f32⟩ : BufTy).Contents (Elt Ideal)) (b : Fin 32) (k : Fin 262144) :
    val_main_v1 (F := Ideal) x (idx_main_v20 (ix1 b) k) = slab x b (rowOf k) (colOf k) := by
  rw [val_main_v1_apply]
  exact congrArg x (flat_idx b k)

/-- The total of the predictions. -/
theorem ref_totalP (p : (⟨S32x1x512x512, .f32⟩ : BufTy).Contents (Elt Ideal)) :
    val_main_v20 (F := Ideal) p = totalVec p := by
  funext i
  obtain ⟨b, rfl⟩ : ∃ b : Fin 32, i = ix1 b := ⟨i 0, eq_ix1 i⟩
  rw [val_main_v20_apply, val_main_cst_5_apply, Ideal.ofBits_def, Ideal.ofBits_zero_f32, zero_add]
  show _ = total (slab p b)
  unfold total
  rw [← sum_flat_eq_rows (fun h w => slab p b h w)]
  exact Finset.sum_congr rfl fun k _ => flat0_apply p b k

/-- The total of the targets. -/
theorem ref_totalT (t : (⟨S32x1x512x512, .f32⟩ : BufTy).Contents (Elt Ideal)) :
    val_main_v21 (F := Ideal) t = totalVec t := by
  funext i
  obtain ⟨b, rfl⟩ : ∃ b : Fin 32, i = ix1 b := ⟨i 0, eq_ix1 i⟩
  rw [val_main_v21_apply, val_main_cst_6_apply, Ideal.ofBits_def, Ideal.ofBits_zero_f32, zero_add]
  show _ = total (slab t b)
  unfold total
  rw [← sum_flat_eq_rows (fun h w => slab t b h w)]
  exact Finset.sum_congr rfl fun k _ => flat1_apply t b k

/-- The total of the products. -/
theorem ref_prod (p t : (⟨S32x1x512x512, .f32⟩ : BufTy).Contents (Elt Ideal)) :
    val_main_v15 (F := Ideal) p t = prodVec p t := by
  funext i
  obtain ⟨b, rfl⟩ : ∃ b : Fin 32, i = ix1 b := ⟨i 0, eq_ix1 i⟩
  rw [val_main_v15_apply, val_main_cst_2_apply, Ideal.ofBits_def, Ideal.ofBits_zero_f32, zero_add]
  show _ = total fun h w => slab p b h w * slab t b h w
  unfold total
  rw [← sum_flat_eq_rows (fun h w => slab p b h w * slab t b h w)]
  refine Finset.sum_congr rfl fun k _ => ?_
  rw [val_main_v14_apply, Ideal.mulf_def]
  exact congrArg₂ (· * ·) (flat0_apply p b k) (flat1_apply t b k)

/-- The index over sample `b` with coordinate `k` inserted on the flattened axis is (b, k). -/
private theorem lift_flat (h : S32x262144.Reduces [1] S32) (b : Fin 32) (k : Fin (S32x262144.size 1)) :
    h.lift (ix1 b) k = idx_main_v20 (ix1 b) ⟨k.val, k.isLt⟩ := by
  funext c
  apply Fin.ext
  fin_cases c <;> rfl

/-- The largest target of each sample. -/
theorem ref_peak (t : (⟨S32x1x512x512, .f32⟩ : BufTy).Contents (Elt Ideal)) (b : Fin 32) :
    val_main_v4 (F := Ideal) t (ix1 b) = peak (slab t b) := by
  have h : S32x262144.Reduces [1] S32 := by decide
  unfold val_main_v4
  refine (Host.reduce_eq_fold_single (FloatOps.maximumf (F := Ideal) (φ := .f32)) (val_main_v1 (F := Ideal) t) (val_main_cst_0 (F := Ideal))
    Gen.reducesTo_S32x262144_S32_d1 h Gen.h_S_ (ix1 b)).trans ?_
  unfold peak
  rw [← fold_max_flat_eq_rows floor (fun h w => slab t b h w)]
  have hf : (val_main_v1 (F := Ideal) t ∘ h.lift (ix1 b)) = fun k : Fin 262144 => slab t b (rowOf k) (colOf k) :=
    funext fun k => by
      show val_main_v1 (F := Ideal) t (h.lift (ix1 b) k) = _
      rw [lift_flat h b k]
      exact flat1_apply t b k
  rw [hf]
  rfl

/-- At (b, k) the reference's bit is the specification's bit at row `k / 512`, column `k % 512`: "equal" of the two
    comparisons is their negated exclusive or, the threshold is one half, and the broadcast maximum is the sample's. -/
private theorem bit_apply (p t : (⟨S32x1x512x512, .f32⟩ : BufTy).Contents (Elt Ideal)) (b : Fin 32) (k : Fin 262144) :
    val_main_v8 (F := Ideal) p t (idx_main_v20 (ix1 b) k)
      = agree (slab p b (rowOf k) (colOf k)) (slab t b (rowOf k) (colOf k)) (peak (slab t b)) := by
  have hi : idx_main_v5 (idx_main_v6 (idx_main_v20 (ix1 b) k)) = ix1 b := by
    funext a
    apply Fin.ext
    match a with
    | ⟨0, _⟩ => rfl
  rw [val_main_v8_apply, val_main_v3_apply, val_main_v7_apply, cmpi_eq_bit, flat0_apply, flat1_apply,
    val_main_v2_apply, val_main_cst_apply, val_main_v6_apply, val_main_v5_apply, hi, ref_peak]
  rfl

/-- The count, converted. -/
theorem ref_hits (p t : (⟨S32x1x512x512, .f32⟩ : BufTy).Contents (Elt Ideal)) :
    val_main_v11 (F := Ideal) p t = hitsVec p t := by
  funext i
  obtain ⟨b, rfl⟩ : ∃ b : Fin 32, i = ix1 b := ⟨i 0, eq_ix1 i⟩
  have h : S32x262144.Reduces [1] S32 := by decide
  rw [val_main_v11_apply]
  unfold val_main_v10
  have e := Host.reduce_eq_fold_single (IntOp.addi (w := 32)) (val_main_v9 (F := Ideal) p t) (val_main_c (F := Ideal))
    Gen.reducesTo_S32x262144_S32_d1 h Gen.h_S_ (ix1 b)
  have hf : (val_main_v9 (F := Ideal) p t ∘ h.lift (ix1 b))
      = fun k : Fin 262144 => (agree (slab p b (rowOf k) (colOf k)) (slab t b (rowOf k) (colOf k)) (peak (slab t b))).setWidth 32 :=
    funext fun k => by
      show (val_main_v8 (F := Ideal) p t (h.lift (ix1 b) k)).setWidth 32 = _
      rw [lift_flat h b k]
      exact congrArg (fun v : BitVec 1 => v.setWidth 32) (bit_apply p t b k)
  rw [hf] at e
  refine (congrArg (FloatOps.sitofp (F := Ideal) .f32) e).trans ?_
  refine (sitofp_fold_addi_bits (ι := Fin 262144)
    (fun k => agree (slab p b (rowOf k) (colOf k)) (slab t b (rowOf k) (colOf k)) (peak (slab t b)))
    (by rw [Fintype.card_fin]; decide)).trans ?_
  show _ = hits (slab p b) (slab t b)
  unfold hits
  exact sum_flat_eq_rows (fun h w =>
    FloatOps.sitofp (F := Ideal) .f32 ((agree (slab p b h w) (slab t b h w) (peak (slab t b))).setWidth 32))

end Cert.Dice

end
-- ==== Proof.RefValue.lean ====
/-
  The reference program's result as the specification's closing chain of the four per-sample statistics of its arguments:
  its last stage is, word for word, the closing chain applied to its four reduction stages, and each of those is the
  specification's statistic.
-/
import proofs.«177935_j19842748907779_1_alg».proof.Proof.Spec
import proofs.«177935_j19842748907779_1_alg».proof.Proof.RefStats
import proofs.«177935_j19842748907779_1_alg».proof.Proof.RefReadPatched

noncomputable section

namespace Cert.Dice

open Idealize.ShloMosaic Idealize.ShloMosaic.TcCoe Idealize.SL.Sem
open Cert.ReferenceIdeal Cert.ReferenceIdeal.Gen Cert.ReferenceIdeal.ReadP

/-- The reference's last stage is the closing chain of the four statistics of its arguments. -/
theorem ref_value (p t : (⟨S32x1x512x512, .f32⟩ : BufTy).Contents (Elt Ideal)) :
    val_main_v32 (F := Ideal) p t
      = closing (F := Ideal) bcast_S_S32 reducesTo_S32_S_d0 h_S_ (hitsVec p t) (prodVec p t) (totalVec p) (totalVec t) := by
  have e : val_main_v32 (F := Ideal) p t
      = closing (F := Ideal) bcast_S_S32 reducesTo_S32_S_d0 h_S_ (val_main_v11 (F := Ideal) p t) (val_main_v15 (F := Ideal) p t)
          (val_main_v20 (F := Ideal) p) (val_main_v21 (F := Ideal) t) := rfl
  rw [e, ref_hits, ref_prod, ref_totalP, ref_totalT]

/-- The reference's run with its result at that value and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32)
        = closing (F := Ideal) bcast_S_S32 reducesTo_S32_S_d0 h_S_
          (hitsVec (m ((c.tc : Thread nD τ).loc main_arg0)) (m ((c.tc : Thread nD τ).loc main_arg1)))
          (prodVec (m ((c.tc : Thread nD τ).loc main_arg0)) (m ((c.tc : Thread nD τ).loc main_arg1)))
          (totalVec (m ((c.tc : Thread nD τ).loc main_arg0)))
          (totalVec (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((val_main_v32_eq _ _).trans (ref_value _ _)), (h c).2⟩)
    (Cert.ReferenceIdeal.RunP.run (F := Ideal) m ρ)

end Cert.Dice

end
-- ==== Proof.lean ====
/-
  A soft-dice loss with an accuracy override, over 32 samples of 512 x 512 predictions and targets: equivalence over the
  extended reals of a two-kernel program and a plain array program.

  Per sample both take the total of the predictions, of the targets and of their products, and the number of positions at
  which "prediction above one half" and "target equal to the sample's largest target" agree; from these four vectors the
  same closing chain makes the loss (score 2 (sum pt + 1) / (sum p + sum t + 1), replaced by 1 where the count over 1
  equals 1; the mean of 1 - score). The kernels work a sample at a time, reducing along rows and then over the rows, the
  first spreading each number over an 8 x 128 tile, the second reading the largest target back from its tile and counting
  with the numbers 0.0 / 1.0; the array program reduces each flattened sample of 262144 entries in one step and counts
  with 32-bit integers. Addition and maximum of extended reals are commutative and associative with no exception, and a
  count of at most 262144 does not wrap, so the four statistics are the same numbers for every input (Spec.lean), and the
  closing chain, shared word for word, is carried as one function and never opened. The precondition is not used.

  The two kernel programs' frames are the generated ones; the reference's frame is its run with the result dropped; the
  idealization rewrote nothing, so there is nothing to preserve.
-/
import proofs.«177935_j19842748907779_1_alg».proof.Defs
import proofs.«177935_j19842748907779_1_alg».proof.Proof.Gen.Kernel
import proofs.«177935_j19842748907779_1_alg».proof.Proof.Gen.Kernel.Frame
import proofs.«177935_j19842748907779_1_alg».proof.Proof.Gen.KernelIdeal
import proofs.«177935_j19842748907779_1_alg».proof.Proof.Gen.KernelIdeal.Frame
import proofs.«177935_j19842748907779_1_alg».proof.Proof.Gen.ReferenceIdeal
import proofs.«177935_j19842748907779_1_alg».proof.Proof.Gen.Pre_finite_inputs
import proofs.«177935_j19842748907779_1_alg».proof.Proof.KernelValue
import proofs.«177935_j19842748907779_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The array program's frame is its run with the result forgotten. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Dice.ref_run m ρ)

/-- From memories agreeing on the arguments both programs end with the closing chain of the same four statistics. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, Cert.Dice.run m ρ, ?_⟩
  refine (θ_run Cert.ReferenceIdeal.defs _ _).mono (fun r h c => ⟨(h c).1.trans ?_, (h c).2⟩) (Cert.Dice.ref_run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
